-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S6144x1024 : S_.BroadcastsInDim S6144x1024 (![] : Fin 0 → Fin S6144x1024.rank)
  reducesTo_S6144x1024_S_d0_1 : S6144x1024.ReducesTo [0, 1] S_
  bcast_S_S6144 : S_.BroadcastsInDim S6144 (![] : Fin 0 → Fin S6144.rank)
  reducesTo_S6144_S_d0 : S6144.ReducesTo [0] S_
  bcast_S_S5120x1024 : S_.BroadcastsInDim S5120x1024 (![] : Fin 0 → Fin S5120x1024.rank)
  reducesTo_S5120x1024_S_d0_1 : S5120x1024.ReducesTo [0, 1] S_
  bcast_S_S5120 : S_.BroadcastsInDim S5120 (![] : Fin 0 → Fin S5120.rank)
  reducesTo_S5120_S_d0 : S5120.ReducesTo [0] S_

variable [Facts]

def fn_part1 {F : FTy → Type} [FloatOps F] (main_arg4 : FVec F S6144 .f32) (main_arg5 : FVec F S5120x1024 .f32) (main_arg6 : FVec F S5120 .f32) (main_v13 : IVec S_ 1) (main_v16 : IVec S6144x1024 1) : IVec S_ 1 :=
  let main_c_5 : IVec S_ 1 := constantI S_ 1 1#1
  let main_v17 : IVec S_ 1 := (fun x v => Host.reduce IntOp.andi x v reducesTo_S6144x1024_S_d0_1 h_S_) main_v16 main_c_5
  let main_v18 : IVec S_ 1 := andi main_v13 main_v17
  let main_v19 : FVec F S6144 .f32 := Host.absf main_arg4
  let main_cst_6 : FVec F S_ .f32 := constant S_ .f32 0x7F800000#32
  let main_v20 : FVec F S6144 .f32 := broadcastInDim S6144 ![] bcast_S_S6144 main_cst_6
  let main_v21 : IVec S6144 1 := cmpf .olt main_v19 main_v20
  let main_c_7 : IVec S_ 1 := constantI S_ 1 1#1
  let main_v22 : IVec S_ 1 := (fun x v => Host.reduce IntOp.andi x v reducesTo_S6144_S_d0 h_S_) main_v21 main_c_7
  let main_v23 : IVec S_ 1 := andi main_v18 main_v22
  let main_v24 : FVec F S5120x1024 .f32 := Host.absf main_arg5
  let main_cst_8 : FVec F S_ .f32 := constant S_ .f32 0x7F800000#32
  let main_v25 : FVec F S5120x1024 .f32 := broadcastInDim S5120x1024 ![] bcast_S_S5120x1024 main_cst_8
  let main_v26 : IVec S5120x1024 1 := cmpf .olt main_v24 main_v25
  let main_c_9 : IVec S_ 1 := constantI S_ 1 1#1
  let main_v27 : IVec S_ 1 := (fun x v => Host.reduce IntOp.andi x v reducesTo_S5120x1024_S_d0_1 h_S_) main_v26 main_c_9
  let main_v28 : IVec S_ 1 := andi main_v23 main_v27
  let main_v29 : FVec F S5120 .f32 := Host.absf main_arg6
  let main_cst_10 : FVec F S_ .f32 := constant S_ .f32 0x7F800000#32
  let main_v30 : FVec F S5120 .f32 := broadcastInDim S5120 ![] bcast_S_S5120 main_cst_10
  let main_v31 : IVec S5120 1 := cmpf .olt main_v29 main_v30
  let main_c_11 : IVec S_ 1 := constantI S_ 1 1#1
  let main_v32 : IVec S_ 1 := (fun x v => Host.reduce IntOp.andi x v reducesTo_S5120_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S6144x1024 .f32) (main_arg4 : FVec F S6144 .f32) (main_arg5 : FVec F S5120x1024 .f32) (main_arg6 : FVec F S5120 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S6144x1024 .f32 := Host.absf main_arg3
  let main_cst_4 : FVec F S_ .f32 := constant S_ .f32 0x7F800000#32
  let main_v15 : FVec F S6144x1024 .f32 := broadcastInDim S6144x1024 ![] bcast_S_S6144x1024 main_cst_4
  let main_v16 : IVec S6144x1024 1 := cmpf .olt main_v14 main_v15
  fn_part1 (F := F) main_arg4 main_arg5 main_arg6 main_v13 main_v16
-- ==== Kernel.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S1x6144 : Shape := ⟨2, ![1, 6144]⟩
abbrev S1x5120 : Shape := ⟨2, ![1, 5120]⟩
abbrev S128x1024 : Shape := ⟨2, ![128, 1024]⟩
abbrev S1024x1024 : Shape := ⟨2, ![1024, 1024]⟩
abbrev S1x1024 : Shape := ⟨2, ![1, 1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S6144x1024, .f32⟩
  | .hbm, ⟨4, _⟩ => ⟨S6144, .f32⟩
  | .hbm, ⟨5, _⟩ => ⟨S5120x1024, .f32⟩
  | .hbm, ⟨6, _⟩ => ⟨S5120, .f32⟩
  | .hbm, ⟨7, _⟩ => ⟨S6144x1024, .bf16⟩
  | .hbm, ⟨8, _⟩ => ⟨S5120x1024, .bf16⟩
  | .hbm, ⟨9, _⟩ => ⟨S1x6144, .f32⟩
  | .hbm, ⟨10, _⟩ => ⟨S1x5120, .f32⟩
  | .hbm, ⟨11, _⟩ => ⟨S16384x1024, .f32⟩
  | .hbm, ⟨12, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S6144x1024, .bf16⟩
  | .local _ .vmem, ⟨7, _⟩ => ⟨S1x6144, .f32⟩
  | .local _ .vmem, ⟨8, _⟩ => ⟨S5120x1024, .bf16⟩
  | .local _ .vmem, ⟨9, _⟩ => ⟨S1x5120, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5120x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S6144_S1x6144 : S6144.ShapeCasts S1x6144
  shapeCasts_S5120_S1x5120 : S5120.ShapeCasts S1x5120
  inb_S128x1024_S128x1024_0_0 : ∀ a, (![0, 0] : Fin 2 → Nat) a + S128x1024.size a ≤ S128x1024.size a
  h_S128x1024 : 0 < S128x1024.numel
  inb_S6144x1024_S1024x1024_0_0 : ∀ a, (![0, 0] : Fin 2 → Nat) a + S1024x1024.size a ≤ S6144x1024.size a
  h_S1024x1024 : 0 < S1024x1024.numel
  shapeCasts_S1024x1024_S1024x1024 : S1024x1024.ShapeCasts S1024x1024
  inb_S5120x1024_S1024x1024_0_0 : ∀ a, (![0, 0] : Fin 2 → Nat) a + S1024x1024.size a ≤ S5120x1024.size a
  inb_S1x6144_S1x1024_0_0 : ∀ a, (![0, 0] : Fin 2 → Nat) a + S1x1024.size a ≤ S1x6144.size a
  h_S1x1024 : 0 < S1x1024.numel
  shapeCasts_S1x1024_S1x1024 : S1x1024.ShapeCasts S1x1024
  inb_S1x5120_S1x1024_0_0 : ∀ a, (![0, 0] : Fin 2 → Nat) a + S1x1024.size a ≤ S1x5120.size a
  broadcasts_S1x1024_S128x1024 : S1x1024.Broadcasts S128x1024
  inb_S6144x1024_S1024x1024_1024_0 : ∀ a, (![1024, 0] : Fin 2 → Nat) a + S1024x1024.size a ≤ S6144x1024.size a
  inb_S5120x1024_S1024x1024_1024_0 : ∀ a, (![1024, 0] : Fin 2 → Nat) a + S1024x1024.size a ≤ S5120x1024.size a
  inb_S1x6144_S1x1024_0_1024 : ∀ a, (![0, 1024] : Fin 2 → Nat) a + S1x1024.size a ≤ S1x6144.size a
  inb_S1x5120_S1x1024_0_1024 : ∀ a, (![0, 1024] : Fin 2 → Nat) a + S1x1024.size a ≤ S1x5120.size a
  inb_S6144x1024_S1024x1024_2048_0 : ∀ a, (![2048, 0] : Fin 2 → Nat) a + S1024x1024.size a ≤ S6144x1024.size a
  inb_S5120x1024_S1024x1024_2048_0 : ∀ a, (![2048, 0] : Fin 2 → Nat) a + S1024x1024.size a ≤ S5120x1024.size a
  inb_S1x6144_S1x1024_0_2048 : ∀ a, (![0, 2048] : Fin 2 → Nat) a + S1x1024.size a ≤ S1x6144.size a
  inb_S1x5120_S1x1024_0_2048 : ∀ a, (![0, 2048] : Fin 2 → Nat) a + S1x1024.size a ≤ S1x5120.size a
  inb_S6144x1024_S1024x1024_3072_0 : ∀ a, (![3072, 0] : Fin 2 → Nat) a + S1024x1024.size a ≤ S6144x1024.size a
  inb_S5120x1024_S1024x1024_3072_0 : ∀ a, (![3072, 0] : Fin 2 → Nat) a + S1024x1024.size a ≤ S5120x1024.size a
  inb_S1x6144_S1x1024_0_3072 : ∀ a, (![0, 3072] : Fin 2 → Nat) a + S1x1024.size a ≤ S1x6144.size a
  inb_S1x5120_S1x1024_0_3072 : ∀ a, (![0, 3072] : Fin 2 → Nat) a + S1x1024.size a ≤ S1x5120.size a
  inb_S6144x1024_S1024x1024_4096_0 : ∀ a, (![4096, 0] : Fin 2 → Nat) a + S1024x1024.size a ≤ S6144x1024.size a
  inb_S5120x1024_S1024x1024_4096_0 : ∀ a, (![4096, 0] : Fin 2 → Nat) a + S1024x1024.size a ≤ S5120x1024.size a
  inb_S1x6144_S1x1024_0_4096 : ∀ a, (![0, 4096] : Fin 2 → Nat) a + S1x1024.size a ≤ S1x6144.size a
  inb_S1x5120_S1x1024_0_4096 : ∀ a, (![0, 4096] : Fin 2 → Nat) a + S1x1024.size a ≤ S1x5120.size a
  inb_S6144x1024_S1024x1024_5120_0 : ∀ a, (![5120, 0] : Fin 2 → Nat) a + S1024x1024.size a ≤ S6144x1024.size a
  inb_S1x6144_S1x1024_0_5120 : ∀ a, (![0, 5120] : Fin 2 → Nat) a + S1x1024.size a ≤ S1x6144.size a
  dot_S128x1024_S1024x1024_S128x1024_1_1_0_0_n_n_wf : DotDims.WF S128x1024 S1024x1024 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6144x1024.size a ≤ S6144x1024.size a
  hwx0_3 : ∀ i : grid0.Coords, EltTy.bits .bf16 = 32 ∨ (Rect.block (s := S6144x1024) S6144x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x6144.size a ≤ S1x6144.size a
  hwx0_4 : ∀ i : grid0.Coords, EltTy.bits .f32 = 32 ∨ (Rect.block (s := S1x6144) S1x6144.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5120x1024.size a ≤ S5120x1024.size a
  hwx0_5 : ∀ i : grid0.Coords, EltTy.bits .bf16 = 32 ∨ (Rect.block (s := S5120x1024) S5120x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x5120.size a ≤ S1x5120.size a
  hwx0_6 : ∀ i : grid0.Coords, EltTy.bits .f32 = 32 ∨ (Rect.block (s := S1x5120) S1x5120.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S16384x1024.size a
  hwx0_7 : ∀ i : grid0.Coords, EltTy.bits .f32 = 32 ∨ (Rect.block (s := S16384x1024) S128x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S16384x1024.size a
  hwx0_8 : ∀ i : grid0.Coords, EltTy.bits .f32 = 32 ∨ (Rect.block (s := S16384x1024) S128x1024.size (cc0_transform_8 i) (hinb0_8 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S6144x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x6144.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S5120x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x5120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S128x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S128x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S6144x1024 : Shape := ⟨2, ![6144, 1024]⟩
abbrev S6144 : Shape := ⟨1, ![6144]⟩
abbrev S5120x1024 : Shape := ⟨2, ![5120, 1024]⟩
abbrev S5120 : Shape := ⟨1, ![5120]⟩
abbrev S1024x6144 : Shape := ⟨2, ![1024, 6144]⟩
abbrev S16384x6144 : Shape := ⟨2, ![16384, 6144]⟩
abbrev S1x6144 : Shape := ⟨2, ![1, 6144]⟩
abbrev S1024x5120 : Shape := ⟨2, ![1024, 5120]⟩
abbrev S16384x5120 : Shape := ⟨2, ![16384, 5120]⟩
abbrev S1x5120 : Shape := ⟨2, ![1, 5120]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S6144x1024, .f32⟩
  | .hbm, ⟨4, _⟩ => ⟨S6144, .f32⟩
  | .hbm, ⟨5, _⟩ => ⟨S5120x1024, .f32⟩
  | .hbm, ⟨6, _⟩ => ⟨S5120, .f32⟩
  | .hbm, ⟨7, _⟩ => ⟨S1024x6144, .f32⟩
  | .hbm, ⟨8, _⟩ => ⟨S16384x6144, .f32⟩
  | .hbm, ⟨9, _⟩ => ⟨S1x6144, .f32⟩
  | .hbm, ⟨10, _⟩ => ⟨S16384x6144, .f32⟩
  | .hbm, ⟨11, _⟩ => ⟨S16384x6144, .f32⟩
  | .hbm, ⟨12, _⟩ => ⟨S1024x5120, .f32⟩
  | .hbm, ⟨13, _⟩ => ⟨S16384x5120, .f32⟩
  | .hbm, ⟨14, _⟩ => ⟨S1x5120, .f32⟩
  | .hbm, ⟨15, _⟩ => ⟨S16384x5120, .f32⟩
  | .hbm, ⟨16, _⟩ => ⟨S16384x5120, .f32⟩
  | .hbm, ⟨17, _⟩ => ⟨S16384x5120, .f32⟩
  | .hbm, ⟨18, _⟩ => ⟨S16384x5120, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]

class Facts₀ : Prop where
  transposes_S6144x1024_S1024x6144_1_0 : S6144x1024.Transposes [1, 0] S1024x6144
  bcast_S6144_S1x6144_1 : S6144.BroadcastsInDim S1x6144 (![1] : Fin 1 → Fin S1x6144.rank)
  bcast_S1x6144_S16384x6144_0_1 : S1x6144.BroadcastsInDim S16384x6144 (![0, 1] : Fin 2 → Fin S16384x6144.rank)
  transposes_S5120x1024_S1024x5120_1_0 : S5120x1024.Transposes [1, 0] S1024x5120
  bcast_S5120_S1x5120_1 : S5120.BroadcastsInDim S1x5120 (![1] : Fin 1 → Fin S1x5120.rank)
  bcast_S1x5120_S16384x5120_0_1 : S1x5120.BroadcastsInDim S16384x5120 (![0, 1] : Fin 2 → Fin S16384x5120.rank)
  slices_S16384x6144_S16384x5120_0_0 : S16384x6144.Slices ![0, 0] S16384x5120
  slices_S16384x5120_S16384x1024_0_0 : S16384x5120.Slices ![0, 0] S16384x1024
  slices_S16384x5120_S16384x1024_0_1024 : S16384x5120.Slices ![0, 1024] S16384x1024
  slices_S16384x5120_S16384x1024_0_2048 : S16384x5120.Slices ![0, 2048] S16384x1024
  slices_S16384x5120_S16384x1024_0_3072 : S16384x5120.Slices ![0, 3072] S16384x1024
  slices_S16384x5120_S16384x1024_0_4096 : S16384x5120.Slices ![0, 4096] S16384x1024
  bcast_S_S16384x1024 : S_.BroadcastsInDim S16384x1024 (![] : Fin 0 → Fin S16384x1024.rank)
  slices_S16384x6144_S16384x1024_0_5120 : S16384x6144.Slices ![0, 5120] S16384x1024
  dot_S16384x1024_S1024x6144_S16384x6144_1_0_0_1_n_n_wf : DotDims.WF S16384x1024 S1024x6144 S16384x6144 [1] [0] [0] [1] [] []
  dot_S16384x1024_S1024x5120_S16384x5120_1_0_0_1_n_n_wf : DotDims.WF S16384x1024 S1024x5120 S16384x5120 [1] [0] [0] [1] [] []

variable [Facts₀]

def dot_S16384x1024_S1024x6144_S16384x6144_1_0_0_1_n_n : DotDims S16384x1024 S1024x6144 S16384x6144 where
  lhsContracting := [1]
  rhsContracting := [0]
  lhsNonContracting := [0]
  rhsNonContracting := [1]
  lhsBatch := []
  rhsBatch := []
  wf := dot_S16384x1024_S1024x6144_S16384x6144_1_0_0_1_n_n_wf
def dot_S16384x1024_S1024x5120_S16384x5120_1_0_0_1_n_n : DotDims S16384x1024 S1024x5120 S16384x5120 where
  lhsContracting := [1]
  rhsContracting := [0]
  lhsNonContracting := [0]
  rhsNonContracting := [1]
  lhsBatch := []
  rhsBatch := []
  wf := dot_S16384x1024_S1024x5120_S16384x5120_1_0_0_1_n_n_wf

class Facts : Prop extends Facts₀ where

variable [Facts]
-- ==== Proof.CellSpec.lean ====
/-
  One step of an LSTM cell with a highway connection, for ONE batch row, over the extended reals.

  For a row `xr` of the input and `hr`, `cr` of the previous state (1024 entries each), an input weight matrix
  `Wi` (6144 × 1024), a state weight matrix `Ws` (5120 × 1024) and their biases, the pre-activation of the gate
  whose columns start at offset `o` is, at column `q`,
      ⟨xr, Wi[o+q]⟩ + ⟨hr, Ws[o+q]⟩ + bi[o+q] + bs[o+q],
  the inner products taken against ROWS of the weight matrices. The five gates sit at offsets 0 (input), 1024
  (forget), 2048 (candidate, through tanh), 3072 (output) and 4096 (highway); the input projection alone has a sixth
  slab at 5120, the highway's linear term ⟨xr, Wi[5120+q]⟩ + bi[5120+q]. Then
      memory = σ(input) · tanh(candidate) + σ(forget) · c,
      output = σ(highway) · (σ(output) · tanh(memory)) + (1 − σ(highway)) · linear,
  with σ the logistic function. The additions of a gate may be grouped either as above or as
  (⟨xr, Wi[o+q]⟩ + bi[o+q]) + (⟨hr, Ws[o+q]⟩ + bs[o+q]): addition of extended reals is commutative and associative,
  so the two groupings agree at every value, infinite ones included (`gateSplit_eq`).
-/
import Idealize.ShloMosaic.Lib.ValueIdx
import Idealize.ShloMosaic.Lib.IdealHost
import Idealize.ShloMosaic.PureOps.Ideal.Laws

noncomputable section

namespace Cert.Cell

open Idealize.ShloMosaic Idealize.ShloMosaic.ValueIdx

/-- A matrix of extended reals with `a` rows and `b` columns. -/
abbrev Mat (a b : Nat) := (⟨2, ![a, b]⟩ : Shape).Idx → EReal

/-- Column `o + q` among the 6144 columns of the input projection. -/
abbrev colI (o : Nat) (ho : o + 1024 ≤ 6144) (q : Fin 1024) : Fin 6144 := ⟨o + q.val, by have := q.isLt; omega⟩
/-- Column `o + q` among the 5120 columns of the state projection. -/
abbrev colS (o : Nat) (ho : o + 1024 ≤ 5120) (q : Fin 1024) : Fin 5120 := ⟨o + q.val, by have := q.isLt; omega⟩

/-- The inner product of a vector with row `j` of a weight matrix. -/
def dot {n : Nat} (u : Fin 1024 → EReal) (W : Mat n 1024) (j : Fin n) : EReal := ∑ k : Fin 1024, u k * W (ix2 j k)

/-- The word of the float 1.0, kept as a word: both programs subtract from the same one. -/
abbrev one : EReal := Ideal.ofBits .f32 0x3F800000#32

section
variable (xr hr cr : Fin 1024 → EReal) (Wi : Mat 6144 1024) (bi : Fin 6144 → EReal) (Ws : Mat 5120 1024) (bs : Fin 5120 → EReal)

/-- A gate's pre-activation, the two products first and then the two biases. -/
def gate (o : Nat) (hI : o + 1024 ≤ 6144) (hS : o + 1024 ≤ 5120) (q : Fin 1024) : EReal :=
  dot xr Wi (colI o hI q) + dot hr Ws (colS o hS q) + bi (colI o hI q) + bs (colS o hS q)

/-- The same pre-activation, each projection with its own bias first. -/
def gateSplit (o : Nat) (hI : o + 1024 ≤ 6144) (hS : o + 1024 ≤ 5120) (q : Fin 1024) : EReal :=
  (dot xr Wi (colI o hI q) + bi (colI o hI q)) + (dot hr Ws (colS o hS q) + bs (colS o hS q))

/-- The two groupings are one value: commutativity and associativity of the sum, nothing finite needed. -/
theorem gateSplit_eq (o : Nat) (hI : o + 1024 ≤ 6144) (hS : o + 1024 ≤ 5120) (q : Fin 1024) :
    gateSplit xr hr Wi bi Ws bs o hI hS q = gate xr hr Wi bi Ws bs o hI hS q := by
  unfold gateSplit gate
  rw [add_add_add_comm, ← add_assoc]

/-- The highway's linear term: the sixth slab of the input projection. -/
def linear (q : Fin 1024) : EReal := dot xr Wi (colI 5120 (by omega) q) + bi (colI 5120 (by omega) q)

/-- The new memory at column `q`. -/
def memory (q : Fin 1024) : EReal :=
  Ideal.logistic (gate xr hr Wi bi Ws bs 0 (by omega) (by omega) q) * Ideal.tanh (gate xr hr Wi bi Ws bs 2048 (by omega) (by omega) q)
    + Ideal.logistic (gate xr hr Wi bi Ws bs 1024 (by omega) (by omega) q) * cr q

/-- The new output at column `q`. -/
def output (q : Fin 1024) : EReal :=
  Ideal.logistic (gate xr hr Wi bi Ws bs 4096 (by omega) (by omega) q)
      * (Ideal.logistic (gate xr hr Wi bi Ws bs 3072 (by omega) (by omega) q) * Ideal.tanh (memory xr hr cr Wi bi Ws bs q))
    + (one - Ideal.logistic (gate xr hr Wi bi Ws bs 4096 (by omega) (by omega) q)) * linear xr Wi bi q

end

/-- The logistic function spelt out with the word of 1.0 — one over one plus the exponential of the negation — is the
    logistic function: the word denotes 1, and the rest is its definition. -/
theorem logistic_spelt (z : EReal) :
    Ideal.div (Ideal.ofBits .f32 0x3F800000#32) (Ideal.ofBits .f32 0x3F800000#32 + Ideal.exp (-z)) = Ideal.logistic z := by
  rw [Ideal.ofBits_one_f32]; rfl

/-! ## The whole arrays -/

section
variable (x h c : Mat 16384 1024) (Wi : Mat 6144 1024) (bi : (⟨1, ![6144]⟩ : Shape).Idx → EReal) (Ws : Mat 5120 1024)
  (bs : (⟨1, ![5120]⟩ : Shape).Idx → EReal)

/-- The memory array: entry `(r, q)` is the cell's memory for batch row `r` at column `q`. -/
def memoryArr : Mat 16384 1024 := fun i =>
  memory (fun k => x (ix2 (i 0) k)) (fun k => h (ix2 (i 0) k)) (fun k => c (ix2 (i 0) k)) Wi (fun j => bi (ix1 j)) Ws (fun j => bs (ix1 j)) (i 1)

/-- The output array, likewise. -/
def outputArr : Mat 16384 1024 := fun i =>
  output (fun k => x (ix2 (i 0) k)) (fun k => h (ix2 (i 0) k)) (fun k => c (ix2 (i 0) k)) Wi (fun j => bi (ix1 j)) Ws (fun j => bs (ix1 j)) (i 1)

end

end Cert.Cell

end
-- ==== Proof.KernelCell.lean ====
/-
  What the kernel body leaves in its two output blocks, read at an entry, is the cell of CellSpec applied to the
  rows of the blocks it loaded.

  A block is 128 batch rows. The body contracts the block's rows of x and h (rounded to bf16, which at exact
  arithmetic changes nothing) against a 1024-row slab of a weight matrix, along the second axis of BOTH operands:
  entry (p, q) of such a product is the inner product of row p of the data with row q of the slab, and row q of the
  slab that starts at row o is row o + q of the whole matrix. A bias is a [1, 1024] window of a [1, N] row starting
  at column o, broadcast down the 128 rows: at (p, q) it is entry o + q of the row. So each gate's pre-activation at
  (p, q) is CellSpec's `gate` at offset o, and the stores' payloads are `memory` and `output`.
-/
import proofs.«115643_j10565619549064_1_alg».proof.Proof.Gen.KernelIdeal.Value
import proofs.«115643_j10565619549064_1_alg».proof.Proof.CellSpec
import Idealize.ShloMosaic.Lib.ValueLayout
import Idealize.ShloMosaic.Lib.Pipeline.Value
import Idealize.ShloMosaic.PureOps.Ideal.Laws

noncomputable section

namespace Cert.KernelIdeal.CellValue

open Cert.KernelIdeal Cert.KernelIdeal.Gen Idealize.ShloMosaic Idealize.ShloMosaic.ValueIdx Cert.Cell

/-! ## A product contracted along the second axis of both operands -/

theorem lhs_rows_0 (i : S128x1024.Idx) (q : dot_S128x1024_S1024x1024_S128x1024_1_1_0_0_n_n.contr.Idx) :
    (dot_S128x1024_S1024x1024_S128x1024_1_1_0_0_n_n.lhsIdx i q 0).val = (i 0).val := by
  unfold DotDims.lhsIdx
  rw [dif_neg (show ¬(0 : Fin S128x1024.rank) ∈ dot_S128x1024_S1024x1024_S128x1024_1_1_0_0_n_n.lhsBatch by decide), dif_pos (show (0 : Fin S128x1024.rank) ∈ dot_S128x1024_S1024x1024_S128x1024_1_1_0_0_n_n.lhsNonContracting by decide)]
  rfl
theorem lhs_rows_1 (i : S128x1024.Idx) (q : dot_S128x1024_S1024x1024_S128x1024_1_1_0_0_n_n.contr.Idx) :
    (dot_S128x1024_S1024x1024_S128x1024_1_1_0_0_n_n.lhsIdx i q 1).val = (q ⟨0, by decide⟩).val :=
  dot_S128x1024_S1024x1024_S128x1024_1_1_0_0_n_n.lhsIdx_val_of_single rfl i q
theorem rhs_rows_0 (i : S128x1024.Idx) (q : dot_S128x1024_S1024x1024_S128x1024_1_1_0_0_n_n.contr.Idx) :
    (dot_S128x1024_S1024x1024_S128x1024_1_1_0_0_n_n.rhsIdx i q 0).val = (i 1).val := by
  unfold DotDims.rhsIdx
  rw [dif_neg (show ¬(0 : Fin S1024x1024.rank) ∈ dot_S128x1024_S1024x1024_S128x1024_1_1_0_0_n_n.rhsBatch by decide), dif_pos (show (0 : Fin S1024x1024.rank) ∈ dot_S128x1024_S1024x1024_S128x1024_1_1_0_0_n_n.rhsNonContracting by decide)]
  rfl
theorem rhs_rows_1 (i : S128x1024.Idx) (q : dot_S128x1024_S1024x1024_S128x1024_1_1_0_0_n_n.contr.Idx) :
    (dot_S128x1024_S1024x1024_S128x1024_1_1_0_0_n_n.rhsIdx i q 1).val = (q ⟨0, by decide⟩).val :=
  dot_S128x1024_S1024x1024_S128x1024_1_1_0_0_n_n.rhsIdx_val_of_single rfl i q

/-- Entry (p, q) of the product into the zero accumulator: row p of the left operand against row q of the right. -/
theorem matmul_rows_apply (A : FVec Ideal S128x1024 .bf16) (B : FVec Ideal S1024x1024 .bf16) (p : Fin 128) (q : Fin 1024) :
    matmul dot_S128x1024_S1024x1024_S128x1024_1_1_0_0_n_n none A B (constant S128x1024 .f32 0x00000000#32) (ix2 p q)
      = ∑ k : Fin 1024, A (ix2 p k) * B (ix2 q k) := by
  show FloatOps.matmul _ none A B (constant (F := Ideal) _ .f32 0x00000000#32) (ix2 p q) = _
  rw [Ideal.matmul_constant_zero_apply, ← Equiv.sum_comp (contrEquiv1 dot_S128x1024_S1024x1024_S128x1024_1_1_0_0_n_n 1024 rfl rfl).symm]
  refine Finset.sum_congr rfl fun k _ => ?_
  have hk := contrEquiv1_symm_val dot_S128x1024_S1024x1024_S128x1024_1_1_0_0_n_n 1024 rfl rfl k
  have el : dot_S128x1024_S1024x1024_S128x1024_1_1_0_0_n_n.lhsIdx (ix2 p q) ((contrEquiv1 dot_S128x1024_S1024x1024_S128x1024_1_1_0_0_n_n 1024 rfl rfl).symm k) = ix2 p k := funext fun a => Fin.ext (by
    match a with
    | ⟨0, _⟩ => exact lhs_rows_0 _ _
    | ⟨1, _⟩ => exact (lhs_rows_1 _ _).trans hk)
  have er : dot_S128x1024_S1024x1024_S128x1024_1_1_0_0_n_n.rhsIdx (ix2 p q) ((contrEquiv1 dot_S128x1024_S1024x1024_S128x1024_1_1_0_0_n_n 1024 rfl rfl).symm k) = ix2 q k := funext fun a => Fin.ext (by
    match a with
    | ⟨0, _⟩ => exact rhs_rows_0 _ _
    | ⟨1, _⟩ => exact (rhs_rows_1 _ _).trans hk)
  rw [el, er]

/-! ## The operations of a vector at an entry -/

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-! ## One gate over a block's row, a slab and two bias windows -/

/-- A gate's pre-activation from a row of each data block, a 1024-row slab of each weight matrix and a [1, 1024]
    window of each bias row. -/
def rowGate (xr hr : Fin 1024 → EReal) (W1 W2 : Mat 1024 1024) (b1 b2 : Mat 1 1024) (q : Fin 1024) : EReal :=
  (∑ k : Fin 1024, xr k * W1 (ix2 q k)) + (∑ k : Fin 1024, hr k * W2 (ix2 q k)) + b1 (ix2 (0 : Fin 1) q) + b2 (ix2 (0 : Fin 1) q)

/-- The sum the body forms for a gate, at entry (p, q): both products, then the two biases broadcast down the rows. -/
theorem preact_apply (A B : FVec Ideal S128x1024 .bf16) (W1 W2 : FVec Ideal S1024x1024 .bf16) (b1 b2 : FVec Ideal S1x1024 .f32)
    (p : Fin 128) (q : Fin 1024) :
    addf (addf (addf (matmul dot_S128x1024_S1024x1024_S128x1024_1_1_0_0_n_n none A W1 (constant S128x1024 .f32 0x00000000#32))
        (matmul dot_S128x1024_S1024x1024_S128x1024_1_1_0_0_n_n none B W2 (constant S128x1024 .f32 0x00000000#32)))
        (broadcastTo S128x1024 b1 broadcasts_S1x1024_S128x1024)) (broadcastTo S128x1024 b2 broadcasts_S1x1024_S128x1024) (ix2 p q)
      = rowGate (fun k => A (ix2 p k)) (fun k => B (ix2 p k)) W1 W2 b1 b2 q := by
  simp only [addf_apply]
  rw [matmul_rows_apply, matmul_rows_apply, broadcastTo_1b_ab_apply, broadcastTo_1b_ab_apply]
  rfl

/-! ## The payloads at an entry -/

/-- The input gate (slabs and windows at 0). -/
theorem pay5_apply (v0 v2 : Vec Ideal S128x1024 .f32) (v5 v7 : Vec Ideal S1024x1024 .bf16) (v9 v11 : Vec Ideal S1x1024 .f32)
    (p : Fin 128) (q : Fin 1024) :
    k0_pay5 v0 v2 v5 v7 v9 v11 (ix2 p q)
      = Ideal.logistic (rowGate (fun k => v0 (ix2 p k)) (fun k => v2 (ix2 p k)) v5 v7 v9 v11 q) := by
  unfold k0_pay5 k0_pay3 k0_pay4
  rw [shapeCast_self, shapeCast_self, shapeCast_self, shapeCast_self, logistic_apply, preact_apply]
  rfl

/-- The forget gate (slabs and windows at 1024), as the body assembles it from three earlier values. -/
theorem pay9_apply (v0 v2 : Vec Ideal S128x1024 .f32) (v21 v23 : Vec Ideal S1024x1024 .bf16) (v25 v27 : Vec Ideal S1x1024 .f32)
    (p : Fin 128) (q : Fin 1024) :
    k0_pay9 (k0_pay6 v27) (k0_pay7 v0 v2 v21 v23) (k0_pay8 v25) (ix2 p q)
      = Ideal.logistic (rowGate (fun k => v0 (ix2 p k)) (fun k => v2 (ix2 p k)) v21 v23 v25 v27 q) := by
  unfold k0_pay9 k0_pay6 k0_pay7 k0_pay8 k0_pay3 k0_pay4
  rw [shapeCast_self, shapeCast_self, shapeCast_self, shapeCast_self, logistic_apply, preact_apply]
  rfl

/-- The candidate (slabs and windows at 2048), through tanh. -/
theorem pay10_apply (v0 v2 : Vec Ideal S128x1024 .f32) (v37 v39 : Vec Ideal S1024x1024 .bf16) (v41 v43 : Vec Ideal S1x1024 .f32)
    (p : Fin 128) (q : Fin 1024) :
    k0_pay10 (k0_pay3 v0) (k0_pay4 v2) v37 v39 v41 v43 (ix2 p q)
      = Ideal.tanh (rowGate (fun k => v0 (ix2 p k)) (fun k => v2 (ix2 p k)) v37 v39 v41 v43 q) := by
  unfold k0_pay10 k0_pay3 k0_pay4
  rw [shapeCast_self, shapeCast_self, shapeCast_self, shapeCast_self, tanh_apply, preact_apply]
  rfl

/-- The output gate (slabs and windows at 3072). -/
theorem pay11_apply (v0 v2 : Vec Ideal S128x1024 .f32) (v53 v55 : Vec Ideal S1024x1024 .bf16) (v57 v59 : Vec Ideal S1x1024 .f32)
    (p : Fin 128) (q : Fin 1024) :
    k0_pay11 (k0_pay3 v0) (k0_pay4 v2) v53 v55 v57 v59 (ix2 p q)
      = Ideal.logistic (rowGate (fun k => v0 (ix2 p k)) (fun k => v2 (ix2 p k)) v53 v55 v57 v59 q) := by
  unfold k0_pay11 k0_pay3 k0_pay4
  rw [shapeCast_self, shapeCast_self, shapeCast_self, shapeCast_self, logistic_apply, preact_apply]
  rfl

/-- The memory store's payload: input · candidate + forget · c. -/
theorem pay1_apply (v4 : Vec Ideal S128x1024 .f32) (v20 v36 v52 : FVec Ideal S128x1024 .f32) (i : S128x1024.Idx) :
    k0_pay1 v4 v20 v36 v52 i = v20 i * v52 i + v36 i * v4 i := rfl

/-- The output store's payload: the highway gate (slabs and windows at 4096) mixes output-gate · tanh(memory) with the
    linear term (slab and window at 5120). -/
theorem pay2_apply (v0 v2 v4 : Vec Ideal S128x1024 .f32) (v20 v36 v52 v68 : FVec Ideal S128x1024 .f32)
    (v69 v71 : Vec Ideal S1024x1024 .bf16) (v73 v75 : Vec Ideal S1x1024 .f32) (v85 : Vec Ideal S1024x1024 .bf16) (v87 : Vec Ideal S1x1024 .f32)
    (p : Fin 128) (q : Fin 1024) :
    k0_pay2 (k0_pay3 v0) (k0_pay4 v2) v4 v20 v36 v52 v68 (k0_pay12 v69) v71 v73 v75 v85 v87 (ix2 p q)
      = Ideal.logistic (rowGate (fun k => v0 (ix2 p k)) (fun k => v2 (ix2 p k)) v69 v71 v73 v75 q)
          * (v68 (ix2 p q) * Ideal.tanh (v20 (ix2 p q) * v52 (ix2 p q) + v36 (ix2 p q) * v4 (ix2 p q)))
        + (one - Ideal.logistic (rowGate (fun k => v0 (ix2 p k)) (fun k => v2 (ix2 p k)) v69 v71 v73 v75 q))
          * ((∑ k : Fin 1024, v0 (ix2 p k) * v85 (ix2 q k)) + v87 (ix2 (0 : Fin 1) q)) := by
  unfold k0_pay2 k0_pay12 k0_pay3 k0_pay4
  rw [shapeCast_self, shapeCast_self, shapeCast_self, shapeCast_self, shapeCast_self, shapeCast_self]
  simp only [addf_apply, mulf_apply, subf_apply, logistic_apply, tanh_apply, broadcast_apply, pay1_apply]
  rw [matmul_rows_apply, matmul_rows_apply, matmul_rows_apply, broadcastTo_1b_ab_apply, broadcastTo_1b_ab_apply,
    broadcastTo_1b_ab_apply]
  rfl

/-! ## Slabs and bias windows: their entries in the whole matrix and the whole row -/

/-- Row q of the slab of the input weights that starts at row o is row o + q of the matrix. -/
theorem slabI_apply (X3 : Vec Ideal S6144x1024 .bf16) (o : Nat) (ho : o + 1024 ≤ 6144)
    (inb : ∀ a, (![o, 0] : Fin 2 → Nat) a + S1024x1024.size a ≤ S6144x1024.size a) (q k : Fin 1024) :
    View.ld X3 (Rect.unit (s := S6144x1024) ![o, 0] S1024x1024.size inb) (ix2 q k) = X3 (ix2 (colI o ho q) k) := by
  show X3 ((Rect.unit (s := S6144x1024) ![o, 0] S1024x1024.size inb).emb (ix2 q k)) = _
  congr 1; funext a; apply Fin.ext
  match a with
  | ⟨0, _⟩ => show o + 1 * q.val = o + q.val; omega
  | ⟨1, _⟩ => show 0 + 1 * k.val = k.val; omega

/-- The same for the state weights. -/
theorem slabS_apply (X5 : Vec Ideal S5120x1024 .bf16) (o : Nat) (ho : o + 1024 ≤ 5120)
    (inb : ∀ a, (![o, 0] : Fin 2 → Nat) a + S1024x1024.size a ≤ S5120x1024.size a) (q k : Fin 1024) :
    View.ld X5 (Rect.unit (s := S5120x1024) ![o, 0] S1024x1024.size inb) (ix2 q k) = X5 (ix2 (colS o ho q) k) := by
  show X5 ((Rect.unit (s := S5120x1024) ![o, 0] S1024x1024.size inb).emb (ix2 q k)) = _
  congr 1; funext a; apply Fin.ext
  match a with
  | ⟨0, _⟩ => show o + 1 * q.val = o + q.val; omega
  | ⟨1, _⟩ => show 0 + 1 * k.val = k.val; omega

/-- Entry q of the window of the input bias row that starts at column o is entry o + q of the row. -/
theorem biasI_apply (X4 : Vec Ideal S1x6144 .f32) (o : Nat) (ho : o + 1024 ≤ 6144)
    (inb : ∀ a, (![0, o] : Fin 2 → Nat) a + S1x1024.size a ≤ S1x6144.size a) (q : Fin 1024) :
    View.ld X4 (Rect.unit (s := S1x6144) ![0, o] S1x1024.size inb) (ix2 (0 : Fin 1) q) = X4 (ix2 (0 : Fin 1) (colI o ho q)) := by
  show X4 ((Rect.unit (s := S1x6144) ![0, o] S1x1024.size inb).emb (ix2 (0 : Fin 1) q)) = _
  congr 1; funext a; apply Fin.ext
  match a with
  | ⟨0, _⟩ => show 0 + 1 * 0 = 0; omega
  | ⟨1, _⟩ => show o + 1 * q.val = o + q.val; omega

/-- The same for the state bias row. -/
theorem biasS_apply (X6 : Vec Ideal S1x5120 .f32) (o : Nat) (ho : o + 1024 ≤ 5120)
    (inb : ∀ a, (![0, o] : Fin 2 → Nat) a + S1x1024.size a ≤ S1x5120.size a) (q : Fin 1024) :
    View.ld X6 (Rect.unit (s := S1x5120) ![0, o] S1x1024.size inb) (ix2 (0 : Fin 1) q) = X6 (ix2 (0 : Fin 1) (colS o ho q)) := by
  show X6 ((Rect.unit (s := S1x5120) ![0, o] S1x1024.size inb).emb (ix2 (0 : Fin 1) q)) = _
  congr 1; funext a; apply Fin.ext
  match a with
  | ⟨0, _⟩ => show 0 + 1 * 0 = 0; omega
  | ⟨1, _⟩ => show o + 1 * q.val = o + q.val; omega

/-! ## The two output blocks at an entry -/

theorem hz : (![0, 0] : Fin 2 → Nat) = fun _ => 0 := funext fun a => by fin_cases a <;> rfl

section
variable (X0 X1 X2 : Vec Ideal S128x1024 .f32) (X3 : Vec Ideal S6144x1024 .bf16) (X4 : Vec Ideal S1x6144 .f32)
  (X5 : Vec Ideal S5120x1024 .bf16) (X6 : Vec Ideal S1x5120 .f32)

/-- A gate over the slabs and windows that start at o is the cell's gate at offset o over the whole matrices. -/
theorem rowGate_slab (xr hr : Fin 1024 → EReal) (o : Nat) (hI : o + 1024 ≤ 6144) (hS : o + 1024 ≤ 5120)
    (inb3 : ∀ a, (![o, 0] : Fin 2 → Nat) a + S1024x1024.size a ≤ S6144x1024.size a)
    (inb5 : ∀ a, (![o, 0] : Fin 2 → Nat) a + S1024x1024.size a ≤ S5120x1024.size a)
    (inb4 : ∀ a, (![0, o] : Fin 2 → Nat) a + S1x1024.size a ≤ S1x6144.size a)
    (inb6 : ∀ a, (![0, o] : Fin 2 → Nat) a + S1x1024.size a ≤ S1x5120.size a) (q : Fin 1024) :
    rowGate xr hr (View.ld X3 (Rect.unit (s := S6144x1024) ![o, 0] S1024x1024.size inb3)) (View.ld X5 (Rect.unit (s := S5120x1024) ![o, 0] S1024x1024.size inb5))
        (View.ld X4 (Rect.unit (s := S1x6144) ![0, o] S1x1024.size inb4)) (View.ld X6 (Rect.unit (s := S1x5120) ![0, o] S1x1024.size inb6)) q
      = gate xr hr X3 (fun j => X4 (ix2 (0 : Fin 1) j)) X5 (fun j => X6 (ix2 (0 : Fin 1) j)) o hI hS q := by
  unfold rowGate gate dot
  simp only [slabI_apply X3 o hI inb3, slabS_apply X5 o hS inb5]
  rw [biasI_apply X4 o hI inb4 q, biasS_apply X6 o hS inb6 q]

/-- The memory block at entry (p, q): the cell's memory for row p of the three data blocks. -/
theorem out8_apply (p : Fin 128) (q : Fin 1024) :
    out0_8 X0 X1 X2 X3 X4 X5 X6 (ix2 p q)
      = memory (fun k => X0 (ix2 p k)) (fun k => X1 (ix2 p k)) (fun k => X2 (ix2 p k)) X3 (fun j => X4 (ix2 (0 : Fin 1) j)) X5
          (fun j => X6 (ix2 (0 : Fin 1) j)) q := by
  unfold out0_8
  rw [View.canon_unit_zero hz]
  simp only [View.ld_unit_zero (S := S128x1024) hz]
  rw [pay1_apply, pay5_apply, pay9_apply, pay10_apply,
    rowGate_slab X3 X4 X5 X6 _ _ 0 (by omega) (by omega), rowGate_slab X3 X4 X5 X6 _ _ 1024 (by omega) (by omega),
    rowGate_slab X3 X4 X5 X6 _ _ 2048 (by omega) (by omega)]
  rfl

/-- The output block at entry (p, q): the cell's output for row p of the three data blocks. -/
theorem out7_apply (p : Fin 128) (q : Fin 1024) :
    out0_7 X0 X1 X2 X3 X4 X5 X6 (ix2 p q)
      = output (fun k => X0 (ix2 p k)) (fun k => X1 (ix2 p k)) (fun k => X2 (ix2 p k)) X3 (fun j => X4 (ix2 (0 : Fin 1) j)) X5
          (fun j => X6 (ix2 (0 : Fin 1) j)) q := by
  unfold out0_7
  rw [View.canon_unit_zero hz]
  simp only [View.ld_unit_zero (S := S128x1024) hz]
  rw [pay2_apply, pay5_apply, pay9_apply, pay10_apply, pay11_apply,
    rowGate_slab X3 X4 X5 X6 _ _ 0 (by omega) (by omega), rowGate_slab X3 X4 X5 X6 _ _ 1024 (by omega) (by omega),
    rowGate_slab X3 X4 X5 X6 _ _ 2048 (by omega) (by omega), rowGate_slab X3 X4 X5 X6 _ _ 3072 (by omega) (by omega),
    rowGate_slab X3 X4 X5 X6 _ _ 4096 (by omega) (by omega)]
  simp only [slabI_apply X3 5120 (by omega), biasI_apply X4 5120 (by omega)]
  rfl

end

end Cert.KernelIdeal.CellValue

end
-- ==== Proof.KernelArray.lean ====
/-
  From the blocks to the two result arrays of the kernel.

  The grid has 128 points; point t stages rows 128·t … 128·t + 127 of x, h and c, and the whole of the two weight
  matrices and the two bias rows (their one block, at block index (0, 0)); it writes back rows 128·t … of the two
  results. The weight windows' arrays are the arguments rounded to bf16 by the host before the call — the same
  values at exact arithmetic — and the bias windows' arrays the arguments viewed as [1, N]. So what point t writes
  back is block t of CellSpec's memory and output arrays of the ARGUMENTS, the 128 blocks cover all 16384 rows,
  and each result array ends equal to that array.
-/
import proofs.«115643_j10565619549064_1_alg».proof.Proof.KernelCell
import Idealize.ShloMosaic.Lib.StableHlo.Run

set_option maxRecDepth 16384

noncomputable section

namespace Cert.KernelIdeal.CellValue

open Cert.KernelIdeal Cert.KernelIdeal.Gen Idealize.ShloMosaic Idealize.ShloMosaic.TcCoe Idealize.ShloMosaic.ValueIdx Idealize.SL.Sem Cert.Cell
open Idealize.ShloMosaic.Pipeline (Dat)

variable (m : (ℓ : Loc nD τ sig) → Buf (Elt Ideal) ℓ) (ρ : Dev nD → PrngReg)

/-- `memory` depends on its arguments only through their values. -/
theorem memory_ext {xr xr' hr hr' cr cr' : Fin 1024 → EReal} {Wi Wi' : Mat 6144 1024} {bi bi' : Fin 6144 → EReal} {Ws Ws' : Mat 5120 1024}
    {bs bs' : Fin 5120 → EReal} {q q' : Fin 1024} (h0 : xr = xr') (h1 : hr = hr') (h2 : cr = cr') (h3 : Wi = Wi') (h4 : bi = bi')
    (h5 : Ws = Ws') (h6 : bs = bs') (hq : q = q') :
    memory xr hr cr Wi bi Ws bs q = memory xr' hr' cr' Wi' bi' Ws' bs' q' := by
  subst h0 h1 h2 h3 h4 h5 h6 hq; rfl

/-- `output` depends on its arguments only through their values. -/
theorem output_ext {xr xr' hr hr' cr cr' : Fin 1024 → EReal} {Wi Wi' : Mat 6144 1024} {bi bi' : Fin 6144 → EReal} {Ws Ws' : Mat 5120 1024}
    {bs bs' : Fin 5120 → EReal} {q q' : Fin 1024} (h0 : xr = xr') (h1 : hr = hr') (h2 : cr = cr') (h3 : Wi = Wi') (h4 : bi = bi')
    (h5 : Ws = Ws') (h6 : bs = bs') (hq : q = q') :
    output xr hr cr Wi bi Ws bs q = output xr' hr' cr' Wi' bi' Ws' bs' q' := by
  subst h0 h1 h2 h3 h4 h5 h6 hq; rfl

/-! ## The arrays the host writes before the call -/

/-- The input weights as the call finds them: rounded to bf16, the same values. -/
theorem V_main_v0_apply (c : Dev nD) (i : S6144x1024.Idx) : V m c main_v0 i = (m ((c : Thread nD τ).loc main_arg3)) i := by
  have e : (V m c main_v0 : S6144x1024.Idx → EReal) = (truncf .bf16 ((m ((c : Thread nD τ).loc main_arg3)) : FVec Ideal S6144x1024 .f32) bitsLt_bf16_f32 : FVec Ideal S6144x1024 .bf16) := by
    dsimp only [Gen.V, Gen.hostOps0]; after_results
  rw [e]; rfl

/-- The state weights likewise. -/
theorem V_main_v1_apply (c : Dev nD) (i : S5120x1024.Idx) : V m c main_v1 i = (m ((c : Thread nD τ).loc main_arg5)) i := by
  have e : (V m c main_v1 : S5120x1024.Idx → EReal) = (truncf .bf16 ((m ((c : Thread nD τ).loc main_arg5)) : FVec Ideal S5120x1024 .f32) bitsLt_bf16_f32 : FVec Ideal S5120x1024 .bf16) := by
    dsimp only [Gen.V, Gen.hostOps0]; after_results
  rw [e]; rfl

/-- The input bias viewed as a [1, 6144] row. -/
theorem V_main_v2_apply (c : Dev nD) (j : Fin 6144) : V m c main_v2 (ix2 (0 : Fin 1) j) = (m ((c : Thread nD τ).loc main_arg4)) (ix1 j) := by
  have e : (V m c main_v2 : S1x6144.Idx → EReal) = shapeCast S1x6144 (m ((c : Thread nD τ).loc main_arg4)) shapeCasts_S6144_S1x6144 := by
    dsimp only [Gen.V, Gen.hostOps0]; after_results; rfl
  rw [e]
  exact shapeCast_a_1a_apply _ _ 0 j

/-- The state bias viewed as a [1, 5120] row. -/
theorem V_main_v3_apply (c : Dev nD) (j : Fin 5120) : V m c main_v3 (ix2 (0 : Fin 1) j) = (m ((c : Thread nD τ).loc main_arg6)) (ix1 j) := by
  have e : (V m c main_v3 : S1x5120.Idx → EReal) = shapeCast S1x5120 (m ((c : Thread nD τ).loc main_arg6)) shapeCasts_S5120_S1x5120 := by
    dsimp only [Gen.V, Gen.hostOps0]; after_results; rfl
  rw [e]
  exact shapeCast_a_1a_apply _ _ 0 j

/-! ## The index maps, decided over the grid -/

/-- The data and result windows are at block (t, 0); the weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Every one of the 128 row blocks is some point's. -/
theorem point_of_block : ∀ b : Fin 128, ∃ t : Fin cfg0.N, t.val = b.val :=
  (by decide +kernel : ∀ b : Fin 128, ∃ t : Fin grid0.N, t.val = b.val)

/-! ## The blocks read off the arguments -/

/-- Row p of window 0's block at point t is batch row 128·t + p of its array. -/
theorem blk0_apply (c : Dev nD) (t : Fin cfg0.N) (p : Fin 128) (k : Fin 1024) (r : Fin 16384) (hr : r.val = t.val * 128 + p.val) :
    iblk m c 0 t (ix2 p k) = (m ((c : Thread nD τ).loc main_arg0)) (ix2 r k) := by
  show V m c main_arg0 (((cfg0.win 0).blk t).view.emb (ix2 p k)) = _
  rw [V_main_arg0]
  obtain ⟨a00, a01, a10, a11, a20, a21, -⟩ := idx_facts t
  congr 1; funext a; apply Fin.ext
  match a with
  | ⟨0, _⟩ => show win0_0.index t (0 : Fin 2) * 128 + 1 * p.val = r.val; omega
  | ⟨1, _⟩ => show win0_0.index t (1 : Fin 2) * 1024 + 1 * k.val = k.val; omega

/-- Row p of window 1's block at point t is batch row 128·t + p of its array. -/
theorem blk1_apply (c : Dev nD) (t : Fin cfg0.N) (p : Fin 128) (k : Fin 1024) (r : Fin 16384) (hr : r.val = t.val * 128 + p.val) :
    iblk m c 1 t (ix2 p k) = (m ((c : Thread nD τ).loc main_arg1)) (ix2 r k) := by
  show V m c main_arg1 (((cfg0.win 1).blk t).view.emb (ix2 p k)) = _
  rw [V_main_arg1]
  obtain ⟨a00, a01, a10, a11, a20, a21, -⟩ := idx_facts t
  congr 1; funext a; apply Fin.ext
  match a with
  | ⟨0, _⟩ => show win0_1.index t (0 : Fin 2) * 128 + 1 * p.val = r.val; omega
  | ⟨1, _⟩ => show win0_1.index t (1 : Fin 2) * 1024 + 1 * k.val = k.val; omega

/-- Row p of window 2's block at point t is batch row 128·t + p of its array. -/
theorem blk2_apply (c : Dev nD) (t : Fin cfg0.N) (p : Fin 128) (k : Fin 1024) (r : Fin 16384) (hr : r.val = t.val * 128 + p.val) :
    iblk m c 2 t (ix2 p k) = (m ((c : Thread nD τ).loc main_arg2)) (ix2 r k) := by
  show V m c main_arg2 (((cfg0.win 2).blk t).view.emb (ix2 p k)) = _
  rw [V_main_arg2]
  obtain ⟨a00, a01, a10, a11, a20, a21, -⟩ := idx_facts t
  congr 1; funext a; apply Fin.ext
  match a with
  | ⟨0, _⟩ => show win0_2.index t (0 : Fin 2) * 128 + 1 * p.val = r.val; omega
  | ⟨1, _⟩ => show win0_2.index t (1 : Fin 2) * 1024 + 1 * k.val = k.val; omega

/-- Window 3's one block is the whole of the input weights. -/
theorem wiBlk_apply (c : Dev nD) (t : Fin cfg0.N) (a : Fin 6144) (b : Fin 1024) :
    iblk m c 3 t (ix2 a b) = (m ((c : Thread nD τ).loc main_arg3)) (ix2 a b) := by
  show V m c main_v0 (((cfg0.win 3).blk t).view.emb (ix2 a b)) = _
  rw [V_main_v0_apply]
  obtain ⟨-, -, -, -, -, -, a30, a31, a40, a41, a50, a51, a60, a61, -⟩ := idx_facts t
  congr 1; funext d; apply Fin.ext
  match d with
  | ⟨0, _⟩ => show win0_3.index t (0 : Fin 2) * 6144 + 1 * a.val = a.val; omega
  | ⟨1, _⟩ => show win0_3.index t (1 : Fin 2) * 1024 + 1 * b.val = b.val; omega

/-- Window 5's one block is the whole of the state weights. -/
theorem wsBlk_apply (c : Dev nD) (t : Fin cfg0.N) (a : Fin 5120) (b : Fin 1024) :
    iblk m c 5 t (ix2 a b) = (m ((c : Thread nD τ).loc main_arg5)) (ix2 a b) := by
  show V m c main_v1 (((cfg0.win 5).blk t).view.emb (ix2 a b)) = _
  rw [V_main_v1_apply]
  obtain ⟨-, -, -, -, -, -, a30, a31, a40, a41, a50, a51, a60, a61, -⟩ := idx_facts t
  congr 1; funext d; apply Fin.ext
  match d with
  | ⟨0, _⟩ => show win0_5.index t (0 : Fin 2) * 5120 + 1 * a.val = a.val; omega
  | ⟨1, _⟩ => show win0_5.index t (1 : Fin 2) * 1024 + 1 * b.val = b.val; omega

/-- Window 4's one block is the whole input bias row. -/
theorem biBlk_apply (c : Dev nD) (t : Fin cfg0.N) (j : Fin 6144) :
    iblk m c 4 t (ix2 (0 : Fin 1) j) = (m ((c : Thread nD τ).loc main_arg4)) (ix1 j) := by
  show V m c main_v2 (((cfg0.win 4).blk t).view.emb (ix2 (0 : Fin 1) j)) = _
  obtain ⟨-, -, -, -, -, -, a30, a31, a40, a41, a50, a51, a60, a61, -⟩ := idx_facts t
  have e : ((cfg0.win 4).blk t).view.emb (ix2 (0 : Fin 1) j) = ix2 (0 : Fin 1) j := by
    funext d; apply Fin.ext
    match d with
    | ⟨0, _⟩ => show win0_4.index t (0 : Fin 2) * 1 + 1 * 0 = 0; omega
    | ⟨1, _⟩ => show win0_4.index t (1 : Fin 2) * 6144 + 1 * j.val = j.val; omega
  rw [e]
  exact V_main_v2_apply m c j

/-- Window 6's one block is the whole state bias row. -/
theorem bsBlk_apply (c : Dev nD) (t : Fin cfg0.N) (j : Fin 5120) :
    iblk m c 6 t (ix2 (0 : Fin 1) j) = (m ((c : Thread nD τ).loc main_arg6)) (ix1 j) := by
  show V m c main_v3 (((cfg0.win 6).blk t).view.emb (ix2 (0 : Fin 1) j)) = _
  obtain ⟨-, -, -, -, -, -, a30, a31, a40, a41, a50, a51, a60, a61, -⟩ := idx_facts t
  have e : ((cfg0.win 6).blk t).view.emb (ix2 (0 : Fin 1) j) = ix2 (0 : Fin 1) j := by
    funext d; apply Fin.ext
    match d with
    | ⟨0, _⟩ => show win0_6.index t (0 : Fin 2) * 1 + 1 * 0 = 0; omega
    | ⟨1, _⟩ => show win0_6.index t (1 : Fin 2) * 5120 + 1 * j.val = j.val; omega
  rw [e]
  exact V_main_v3_apply m c j

/-! ## The memory array (output window 8) -/

/-- WHAT POINT t WRITES BACK to window 8 is block t of the memory array of the arguments. -/
theorem flushed8_eq (c : Dev nD) (t : Fin cfg0.N) :
    (dats m 0 c).flushed 8 t = ((cfg0.win 8).blk t).view.read (Elt Ideal) (memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed8]
  funext j
  obtain ⟨p, q, rfl⟩ : ∃ (p : Fin 128) (q : Fin 1024), j = ix2 p q := ⟨j 0, j 1, eq_ix2 j⟩
  show out0_8 (iblk m c 0 t) (iblk m c 1 t) (iblk m c 2 t) (iblk m c 3 t) (iblk m c 4 t) (iblk m c 5 t) (iblk m c 6 t) (ix2 p q)
    = memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 8).blk t).view.emb (ix2 p q))
  refine (out8_apply (iblk m c 0 t) (iblk m c 1 t) (iblk m c 2 t) (iblk m c 3 t) (iblk m c 4 t) (iblk m c 5 t) (iblk m c 6 t) p q).trans ?_
  obtain ⟨-, -, -, -, -, -, -, -, -, -, -, -, -, -, a70, a71, a80, a81⟩ := idx_facts t
  have hrow : ((((cfg0.win 8).blk t).view.emb (ix2 p q)) 0).val = t.val * 128 + p.val := by
    show win0_8.index t (0 : Fin 2) * 128 + 1 * p.val = _; omega
  have hcol : ((((cfg0.win 8).blk t).view.emb (ix2 p q)) 1).val = q.val := by
    show win0_8.index t (1 : Fin 2) * 1024 + 1 * q.val = _; omega
  exact memory_ext (funext fun k => blk0_apply m c t p k _ hrow) (funext fun k => blk1_apply m c t p k _ hrow)
    (funext fun k => blk2_apply m c t p k _ hrow) (funext fun i => by
      obtain ⟨a, b, rfl⟩ : ∃ (a : Fin 6144) (b : Fin 1024), i = ix2 a b := ⟨i 0, i 1, eq_ix2 i⟩
      exact wiBlk_apply m c t a b) (funext fun j => biBlk_apply m c t j) (funext fun i => by
      obtain ⟨a, b, rfl⟩ : ∃ (a : Fin 5120) (b : Fin 1024), i = ix2 a b := ⟨i 0, i 1, eq_ix2 i⟩
      exact wsBlk_apply m c t a b) (funext fun j => bsBlk_apply m c t j) (Fin.ext hcol.symm)

/-- An index of the array is in point t's block iff each coordinate is in the block's range on its axis. -/
theorem mem_blk8 (t : Fin cfg0.N) (i : S16384x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v4_1).slice (win0_8.rect t)).set ↔ _
  rw [View.set_slice_whole, Rect.mem_set_unit]
  exact Iff.rfl

/-- Every batch row lies in the block of the point that is its quotient by 128. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  obtain ⟨t, ht⟩ := point_of_block ⟨(i 0).val / 128, by omega⟩
  have ht' : t.val = (i 0).val / 128 := ht
  obtain ⟨-, -, -, -, -, -, -, -, -, -, -, -, -, -, a70, a71, a80, a81⟩ := idx_facts t
  refine ⟨t, flush0_8 t, ?_⟩
  rw [mem_blk8]
  intro a
  match a with
  | ⟨0, _⟩ => show win0_8.index t (0 : Fin 2) * 128 ≤ (i 0).val ∧ (i 0).val < win0_8.index t (0 : Fin 2) * 128 + 128; omega
  | ⟨1, _⟩ => show win0_8.index t (1 : Fin 2) * 1024 ≤ (i 1).val ∧ (i 1).val < win0_8.index t (1 : Fin 2) * 1024 + 1024; omega

/-- THE ARRAY after the run. -/
theorem final8 (c : Dev nD) : (dats m 0 c).arrAt 8 cfg0.N = memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8_eq m c t) cover8

/-! ## The output array (output window 7) -/

/-- WHAT POINT t WRITES BACK to window 7 is block t of the output array of the arguments. -/
theorem flushed7_eq (c : Dev nD) (t : Fin cfg0.N) :
    (dats m 0 c).flushed 7 t = ((cfg0.win 7).blk t).view.read (Elt Ideal) (outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext j
  obtain ⟨p, q, rfl⟩ : ∃ (p : Fin 128) (q : Fin 1024), j = ix2 p q := ⟨j 0, j 1, eq_ix2 j⟩
  show out0_7 (iblk m c 0 t) (iblk m c 1 t) (iblk m c 2 t) (iblk m c 3 t) (iblk m c 4 t) (iblk m c 5 t) (iblk m c 6 t) (ix2 p q)
    = outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb (ix2 p q))
  refine (out7_apply (iblk m c 0 t) (iblk m c 1 t) (iblk m c 2 t) (iblk m c 3 t) (iblk m c 4 t) (iblk m c 5 t) (iblk m c 6 t) p q).trans ?_
  obtain ⟨-, -, -, -, -, -, -, -, -, -, -, -, -, -, a70, a71, a80, a81⟩ := idx_facts t
  have hrow : ((((cfg0.win 7).blk t).view.emb (ix2 p q)) 0).val = t.val * 128 + p.val := by
    show win0_7.index t (0 : Fin 2) * 128 + 1 * p.val = _; omega
  have hcol : ((((cfg0.win 7).blk t).view.emb (ix2 p q)) 1).val = q.val := by
    show win0_7.index t (1 : Fin 2) * 1024 + 1 * q.val = _; omega
  exact output_ext (funext fun k => blk0_apply m c t p k _ hrow) (funext fun k => blk1_apply m c t p k _ hrow)
    (funext fun k => blk2_apply m c t p k _ hrow) (funext fun i => by
      obtain ⟨a, b, rfl⟩ : ∃ (a : Fin 6144) (b : Fin 1024), i = ix2 a b := ⟨i 0, i 1, eq_ix2 i⟩
      exact wiBlk_apply m c t a b) (funext fun j => biBlk_apply m c t j) (funext fun i => by
      obtain ⟨a, b, rfl⟩ : ∃ (a : Fin 5120) (b : Fin 1024), i = ix2 a b := ⟨i 0, i 1, eq_ix2 i⟩
      exact wsBlk_apply m c t a b) (funext fun j => bsBlk_apply m c t j) (Fin.ext hcol.symm)

/-- An index of the array is in point t's block iff each coordinate is in the block's range on its axis. -/
theorem mem_blk7 (t : Fin cfg0.N) (i : S16384x1024.Idx) :
    i ∈ ((cfg0.win 7).blk t).view.set ↔ ∀ a : Fin 2, win0_7.index t a * S128x1024.size a ≤ (i a).val ∧ (i a).val < win0_7.index t a * S128x1024.size a + S128x1024.size a := by
  show i ∈ ((View.whole main_v4_0).slice (win0_7.rect t)).set ↔ _
  rw [View.set_slice_whole, Rect.mem_set_unit]
  exact Iff.rfl

/-- Every batch row lies in the block of the point that is its quotient by 128. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  obtain ⟨t, ht⟩ := point_of_block ⟨(i 0).val / 128, by omega⟩
  have ht' : t.val = (i 0).val / 128 := ht
  obtain ⟨-, -, -, -, -, -, -, -, -, -, -, -, -, -, a70, a71, a80, a81⟩ := idx_facts t
  refine ⟨t, flush0_7 t, ?_⟩
  rw [mem_blk7]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 1024 ≤ (i 1).val ∧ (i 1).val < win0_7.index t (1 : Fin 2) * 1024 + 1024; omega

/-- THE ARRAY after the run. -/
theorem final7 (c : Dev nD) : (dats m 0 c).arrAt 7 cfg0.N = outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed7_eq m c t) cover7

/-! ## The run, read -/

/-- The frame run re-posted: each result array at its function of the arguments, the arguments unchanged. -/
theorem run : θ_run defs (onTc (τ := τ) (main (F := Ideal))) ⟨m, fun _ => 0, ρ⟩ fun r => ∀ c : Dev nD,
      r.2.mem ((c : Thread nD τ).loc main_v4_0) = outputArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = memoryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Cert.KernelIdeal.Value.run_blocks m ρ)

end Cert.KernelIdeal.CellValue

end
-- ==== Proof.RefValue.lean ====
/-
  The reference's two results, read at an index, are the cell of CellSpec.

  The reference forms the whole input projection x·Wiᵀ + bi (16384 × 6144) and the whole state projection
  h·Wsᵀ + bs (16384 × 5120), adds the first 5120 columns of the one to the other, and cuts the sum into five gates
  of 1024 columns; the sixth slab of the input projection is the highway's linear term. At entry (r, j) a
  projection is the inner product of row r of the data with ROW j of the weight matrix (the transpose only swaps
  the weight's two coordinates) plus bias j, so a gate's slice at (r, q) is the split grouping of CellSpec at
  column offset + q, which is the kernel's grouping by `gateSplit_eq`. The logistic function arrives spelt out
  (one over one plus the exponential of the negation, with the word of 1.0): `logistic_spelt`.
-/
import proofs.«115643_j10565619549064_1_alg».proof.Proof.Gen.ReferenceIdeal.Read
import proofs.«115643_j10565619549064_1_alg».proof.Proof.CellSpec

noncomputable section

namespace Cert.ReferenceIdeal.RefValue

open Cert.ReferenceIdeal Cert.ReferenceIdeal.Gen Cert.ReferenceIdeal.Read Idealize.ShloMosaic Idealize.ShloMosaic.ValueIdx Cert.Cell

variable (x0 x1 x2 : (⟨S16384x1024, .f32⟩ : BufTy).Contents (Elt Ideal)) (x3 : (⟨S6144x1024, .f32⟩ : BufTy).Contents (Elt Ideal)) (x4 : (⟨S6144, .f32⟩ : BufTy).Contents (Elt Ideal)) (x5 : (⟨S5120x1024, .f32⟩ : BufTy).Contents (Elt Ideal)) (x6 : (⟨S5120, .f32⟩ : BufTy).Contents (Elt Ideal))

/-! ## The two projections at an entry -/

/-- The input projection at an entry in row `r`, column `j`. -/
theorem projIn_at (r : Fin 16384) (j : Fin 6144) (i : S16384x6144.Idx) (h0 : (i 0).val = r.val) (h1 : (i 1).val = j.val) :
    val_main_v4 (F := Ideal) x0 x3 x4 i = dot (fun k => x0 (ix2 r k)) x3 j + x4 (ix1 j) := by
  rw [val_main_v4_apply, val_main_v1_apply, val_main_v3_apply, val_main_v2_apply]
  simp only [val_main_v0_apply]
  have el : ∀ k : Fin 1024, lidx_main_v1 i k = ix2 r k := fun k => funext fun a => Fin.ext (by
    match a with
    | ⟨0, _⟩ => exact h0
    | ⟨1, _⟩ => rfl)
  have er : ∀ k : Fin 1024, idx_main_v0 (ridx_main_v1 i k) = ix2 j k := fun k => funext fun a => Fin.ext (by
    match a with
    | ⟨0, _⟩ => exact h1
    | ⟨1, _⟩ => rfl)
  have eb : idx_main_v2 (idx_main_v3 i) = ix1 j := funext fun a => Fin.ext (by
    match a with
    | ⟨0, _⟩ => exact h1)
  simp only [el, er, eb]
  rfl

/-- The state projection at an entry in row `r`, column `j`. -/
theorem projSt_at (r : Fin 16384) (j : Fin 5120) (i : S16384x5120.Idx) (h0 : (i 0).val = r.val) (h1 : (i 1).val = j.val) :
    val_main_v9 (F := Ideal) x1 x5 x6 i = dot (fun k => x1 (ix2 r k)) x5 j + x6 (ix1 j) := by
  rw [val_main_v9_apply, val_main_v6_apply, val_main_v8_apply, val_main_v7_apply]
  simp only [val_main_v5_apply]
  have el : ∀ k : Fin 1024, lidx_main_v6 i k = ix2 r k := fun k => funext fun a => Fin.ext (by
    match a with
    | ⟨0, _⟩ => exact h0
    | ⟨1, _⟩ => rfl)
  have er : ∀ k : Fin 1024, idx_main_v5 (ridx_main_v6 i k) = ix2 j k := fun k => funext fun a => Fin.ext (by
    match a with
    | ⟨0, _⟩ => exact h1
    | ⟨1, _⟩ => rfl)
  have eb : idx_main_v7 (idx_main_v8 i) = ix1 j := funext fun a => Fin.ext (by
    match a with
    | ⟨0, _⟩ => exact h1)
  simp only [el, er, eb]
  rfl

/-- The fused projections at an entry in row `r`: column `jI` of the input projection's first 5120 and the same
    column `jS` of the state projection. -/
theorem fused_at (r : Fin 16384) (jI : Fin 6144) (jS : Fin 5120) (hj : jI.val = jS.val) (i : S16384x5120.Idx)
    (h0 : (i 0).val = r.val) (h1 : (i 1).val = jS.val) :
    val_main_v11 (F := Ideal) x0 x1 x3 x4 x5 x6 i
      = (dot (fun k => x0 (ix2 r k)) x3 jI + x4 (ix1 jI)) + (dot (fun k => x1 (ix2 r k)) x5 jS + x6 (ix1 jS)) := by
  rw [val_main_v11_apply, val_main_v10_apply, projIn_at x0 x3 x4 r jI (idx_main_v10 i) h0 (h1.trans hj.symm),
    projSt_at x1 x5 x6 r jS i h0 h1]
  rfl

/-- Gate slice at column offset 0: entry (r, q) is the gate's pre-activation. -/
theorem gate0_apply (r : Fin 16384) (q : Fin 1024) :
    val_main_v12 (F := Ideal) x0 x1 x3 x4 x5 x6 (ix2 r q) = gate (fun k => x0 (ix2 r k)) (fun k => x1 (ix2 r k)) x3 (fun j => x4 (ix1 j)) x5 (fun j => x6 (ix1 j)) 0 (by omega) (by omega) q := by
  rw [val_main_v12_apply, ← gateSplit_eq]
  exact fused_at x0 x1 x3 x4 x5 x6 r (colI 0 (by omega) q) (colS 0 (by omega) q) rfl _ rfl (by show _ = 0 + q.val; exact (Nat.zero_add _).symm)

/-- Gate slice at column offset 1024: entry (r, q) is the gate's pre-activation. -/
theorem gate1024_apply (r : Fin 16384) (q : Fin 1024) :
    val_main_v13 (F := Ideal) x0 x1 x3 x4 x5 x6 (ix2 r q) = gate (fun k => x0 (ix2 r k)) (fun k => x1 (ix2 r k)) x3 (fun j => x4 (ix1 j)) x5 (fun j => x6 (ix1 j)) 1024 (by omega) (by omega) q := by
  rw [val_main_v13_apply, ← gateSplit_eq]
  exact fused_at x0 x1 x3 x4 x5 x6 r (colI 1024 (by omega) q) (colS 1024 (by omega) q) rfl _ rfl (by show _ = 1024 + q.val; rfl)

/-- Gate slice at column offset 2048: entry (r, q) is the gate's pre-activation. -/
theorem gate2048_apply (r : Fin 16384) (q : Fin 1024) :
    val_main_v14 (F := Ideal) x0 x1 x3 x4 x5 x6 (ix2 r q) = gate (fun k => x0 (ix2 r k)) (fun k => x1 (ix2 r k)) x3 (fun j => x4 (ix1 j)) x5 (fun j => x6 (ix1 j)) 2048 (by omega) (by omega) q := by
  rw [val_main_v14_apply, ← gateSplit_eq]
  exact fused_at x0 x1 x3 x4 x5 x6 r (colI 2048 (by omega) q) (colS 2048 (by omega) q) rfl _ rfl (by show _ = 2048 + q.val; rfl)

/-- Gate slice at column offset 3072: entry (r, q) is the gate's pre-activation. -/
theorem gate3072_apply (r : Fin 16384) (q : Fin 1024) :
    val_main_v15 (F := Ideal) x0 x1 x3 x4 x5 x6 (ix2 r q) = gate (fun k => x0 (ix2 r k)) (fun k => x1 (ix2 r k)) x3 (fun j => x4 (ix1 j)) x5 (fun j => x6 (ix1 j)) 3072 (by omega) (by omega) q := by
  rw [val_main_v15_apply, ← gateSplit_eq]
  exact fused_at x0 x1 x3 x4 x5 x6 r (colI 3072 (by omega) q) (colS 3072 (by omega) q) rfl _ rfl (by show _ = 3072 + q.val; rfl)

/-- Gate slice at column offset 4096: entry (r, q) is the gate's pre-activation. -/
theorem gate4096_apply (r : Fin 16384) (q : Fin 1024) :
    val_main_v16 (F := Ideal) x0 x1 x3 x4 x5 x6 (ix2 r q) = gate (fun k => x0 (ix2 r k)) (fun k => x1 (ix2 r k)) x3 (fun j => x4 (ix1 j)) x5 (fun j => x6 (ix1 j)) 4096 (by omega) (by omega) q := by
  rw [val_main_v16_apply, ← gateSplit_eq]
  exact fused_at x0 x1 x3 x4 x5 x6 r (colI 4096 (by omega) q) (colS 4096 (by omega) q) rfl _ rfl (by show _ = 4096 + q.val; rfl)

/-- The sixth slab of the input projection: entry (r, q) is the highway's linear term. -/
theorem linear_apply (r : Fin 16384) (q : Fin 1024) :
    val_main_v47 (F := Ideal) x0 x3 x4 (ix2 r q) = linear (fun k => x0 (ix2 r k)) x3 (fun j => x4 (ix1 j)) q := by
  rw [val_main_v47_apply]
  exact projIn_at x0 x3 x4 r (colI 5120 (by omega) q) _ rfl rfl

/-- The logistic function of slice %12, spelt out by the reference in operations %17 … %22. -/
theorem sigInput (i : S16384x1024.Idx) :
    val_main_v22 (F := Ideal) x0 x1 x3 x4 x5 x6 i = Ideal.logistic (val_main_v12 (F := Ideal) x0 x1 x3 x4 x5 x6 i) := by
  rw [val_main_v22_apply, val_main_v21_apply, val_main_cst_0_apply, val_main_v20_apply, val_main_v19_apply, val_main_cst_apply,
    val_main_v18_apply, val_main_v17_apply]
  exact logistic_spelt _

/-- The logistic function of slice %13, spelt out by the reference in operations %23 … %28. -/
theorem sigForget (i : S16384x1024.Idx) :
    val_main_v28 (F := Ideal) x0 x1 x3 x4 x5 x6 i = Ideal.logistic (val_main_v13 (F := Ideal) x0 x1 x3 x4 x5 x6 i) := by
  rw [val_main_v28_apply, val_main_v27_apply, val_main_cst_2_apply, val_main_v26_apply, val_main_v25_apply, val_main_cst_1_apply,
    val_main_v24_apply, val_main_v23_apply]
  exact logistic_spelt _

/-- The logistic function of slice %15, spelt out by the reference in operations %30 … %35. -/
theorem sigOutput (i : S16384x1024.Idx) :
    val_main_v35 (F := Ideal) x0 x1 x3 x4 x5 x6 i = Ideal.logistic (val_main_v15 (F := Ideal) x0 x1 x3 x4 x5 x6 i) := by
  rw [val_main_v35_apply, val_main_v34_apply, val_main_cst_4_apply, val_main_v33_apply, val_main_v32_apply, val_main_cst_3_apply,
    val_main_v31_apply, val_main_v30_apply]
  exact logistic_spelt _

/-- The logistic function of slice %16, spelt out by the reference in operations %36 … %41. -/
theorem sigHighway (i : S16384x1024.Idx) :
    val_main_v41 (F := Ideal) x0 x1 x3 x4 x5 x6 i = Ideal.logistic (val_main_v16 (F := Ideal) x0 x1 x3 x4 x5 x6 i) := by
  rw [val_main_v41_apply, val_main_v40_apply, val_main_cst_6_apply, val_main_v39_apply, val_main_v38_apply, val_main_cst_5_apply,
    val_main_v37_apply, val_main_v36_apply]
  exact logistic_spelt _

/-! ## The two results -/

/-- The reference's memory at (r, q) is the cell's. -/
theorem memory_apply (r : Fin 16384) (q : Fin 1024) :
    val_main_v44 (F := Ideal) x0 x1 x2 x3 x4 x5 x6 (ix2 r q)
      = memory (fun k => x0 (ix2 r k)) (fun k => x1 (ix2 r k)) (fun k => x2 (ix2 r k)) x3 (fun j => x4 (ix1 j)) x5 (fun j => x6 (ix1 j)) q := by
  rw [val_main_v44_apply, val_main_v42_apply, val_main_v43_apply, val_main_v29_apply, sigInput, sigForget,
    gate0_apply, gate1024_apply, gate2048_apply]
  rfl

/-- The reference's output at (r, q) is the cell's. -/
theorem output_apply (r : Fin 16384) (q : Fin 1024) :
    val_main_v52 (F := Ideal) x0 x1 x2 x3 x4 x5 x6 (ix2 r q)
      = output (fun k => x0 (ix2 r k)) (fun k => x1 (ix2 r k)) (fun k => x2 (ix2 r k)) x3 (fun j => x4 (ix1 j)) x5 (fun j => x6 (ix1 j)) q := by
  rw [val_main_v52_apply, val_main_v48_apply, val_main_v46_apply, val_main_v45_apply, memory_apply, val_main_v51_apply,
    val_main_v50_apply, val_main_v49_apply, val_main_cst_7_apply, sigOutput, sigHighway, gate3072_apply, gate4096_apply, linear_apply]
  rfl

/-- The reference's memory array is the cell's memory array. -/
theorem memory_eq : val_main_v44 (F := Ideal) x0 x1 x2 x3 x4 x5 x6 = memoryArr x0 x1 x2 x3 x4 x5 x6 := by
  funext i
  obtain ⟨r, q, rfl⟩ : ∃ (r : Fin 16384) (q : Fin 1024), i = ix2 r q := ⟨i 0, i 1, eq_ix2 i⟩
  exact memory_apply x0 x1 x2 x3 x4 x5 x6 r q

/-- The reference's output array is the cell's output array. -/
theorem output_eq : val_main_v52 (F := Ideal) x0 x1 x2 x3 x4 x5 x6 = outputArr x0 x1 x2 x3 x4 x5 x6 := by
  funext i
  obtain ⟨r, q, rfl⟩ : ∃ (r : Fin 16384) (q : Fin 1024), i = ix2 r q := ⟨i 0, i 1, eq_ix2 i⟩
  exact output_apply x0 x1 x2 x3 x4 x5 x6 r q

end Cert.ReferenceIdeal.RefValue

end
-- ==== Proof.lean ====
/-
  One step of an LSTM cell with a highway connection over a batch of 16384 rows, as a Pallas kernel on 128-row blocks
  and as a plain jnp reference, are the same function of their seven arguments over the extended reals.

  Both compute, for batch row r and column q, five gate pre-activations
      ⟨x[r], Wi[o+q]⟩ + ⟨h[r], Ws[o+q]⟩ + bi[o+q] + bs[o+q]      (o = 0, 1024, 2048, 3072, 4096)
  and a linear term ⟨x[r], Wi[5120+q]⟩ + bi[5120+q], then
      memory = σ(g₀)·tanh(g₂₀₄₈) + σ(g₁₀₂₄)·c[r,q],   output = σ(g₄₀₉₆)·(σ(g₃₀₇₂)·tanh(memory)) + (1 − σ(g₄₀₉₆))·linear
  (Proof/CellSpec.lean). The kernel contracts a block's rows against 1024-row slabs of the weights, along the second
  axis of both operands, and adds the two products before the two biases (Proof/KernelCell.lean); its 128 blocks tile
  the two result arrays (Proof/KernelArray.lean). The reference forms both whole projections with their biases, adds
  them, slices the gates out, and spells the logistic function as 1 / (1 + exp(−·)) (Proof/RefValue.lean). The two
  groupings of a gate's four summands agree because addition of extended reals is commutative and associative, so
  no finiteness of the inputs is used; the kernel's rounding of x, h and the weights to bf16 is the identity at
  exact arithmetic; and the idealization rewrote nothing, so `preserves` is trivial.
-/
import proofs.«115643_j10565619549064_1_alg».proof.Defs
import proofs.«115643_j10565619549064_1_alg».proof.Proof.Gen.Kernel.Frame
import proofs.«115643_j10565619549064_1_alg».proof.Proof.Gen.KernelIdeal.Frame
import proofs.«115643_j10565619549064_1_alg».proof.Proof.Gen.KernelIdeal.Value
import proofs.«115643_j10565619549064_1_alg».proof.Proof.Gen.ReferenceIdeal.Run
import proofs.«115643_j10565619549064_1_alg».proof.Proof.Gen.ReferenceIdeal.Read
import proofs.«115643_j10565619549064_1_alg».proof.Proof.Gen.Pre_finite_inputs
import proofs.«115643_j10565619549064_1_alg».proof.Proof.KernelArray
import proofs.«115643_j10565619549064_1_alg».proof.Proof.RefValue
import Idealize.ShloMosaic.Adequacy
import Idealize.ShloMosaic.Init

noncomputable section

namespace Cert.Proof

open Idealize.ShloMosaic Idealize.ShloMosaic.TcCoe Idealize.SL.Sem Cert.Cell

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the output array and the memory array of the cell, of arguments that agree. -/
theorem algebraic : Cert.algebraic_KernelIdeal_ReferenceIdeal := by
  intro m ρ m' ρ' _ hagree
  refine ⟨fun c => outputArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => memoryArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [Cert.ReferenceIdeal.Read.val_main_v52_eq, Cert.ReferenceIdeal.RefValue.output_eq, h0, h1, h2, h3, h4, h5, h6]
  · obtain ⟨h0, h1, h2, h3, h4, h5, h6⟩ := hagree c
    rw [Cert.ReferenceIdeal.Read.val_main_v44_eq, Cert.ReferenceIdeal.RefValue.memory_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
